-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x64 : Shape := ⟨3, ![64, 64, 64]⟩
abbrev S1x256 : Shape := ⟨2, ![1, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S64x64x64 : S_.BroadcastsInDim S64x64x64 (![] : Fin 0 → Fin S64x64x64.rank)
  reducesTo_S64x64x64_S_d0_1_2 : S64x64x64.ReducesTo [0, 1, 2] S_
  h_S_ : 0 < S_.numel
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256 .f32) (main_arg5 : FVec F S256x1 .f32) (main_arg6 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S64x64x64 .f32) (main_arg1 : FVec F S1x256 .f32) (main_arg2 : FVec F S256 .f32) (main_arg3 : FVec F S256x256 .f32) (main_arg4 : FVec F S256 .f32) (main_arg5 : FVec F S256x1 .f32) (main_arg6 : FVec F S1 .f32) : IVec S_ 1 :=
  let main_v0 : FVec F S64x64x64 .f32 := Host.absf main_arg0
  let main_cst : FVec F S_ .f32 := constant S_ .f32 0x7F800000#32
  let main_v1 : FVec F S64x64x64 .f32 := broadcastInDim S64x64x64 ![] bcast_S_S64x64x64 main_cst
  let main_v2 : IVec S64x64x64 1 := cmpf .olt main_v0 main_v1
  let main_c : IVec S_ 1 := constantI S_ 1 1#1
  let main_v3 : IVec S_ 1 := (fun x v => Host.reduce IntOp.andi x v reducesTo_S64x64x64_S_d0_1_2 h_S_) main_v2 main_c
  let main_v4 : FVec F S1x256 .f32 := Host.absf main_arg1
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S64x64x64 : Shape := ⟨3, ![64, 64, 64]⟩
abbrev S1x256 : Shape := ⟨2, ![1, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩
abbrev S64x64 : Shape := ⟨2, ![64, 64]⟩
abbrev S64x64x1 : Shape := ⟨3, ![64, 64, 1]⟩
abbrev S4096x64 : Shape := ⟨2, ![4096, 64]⟩
abbrev S1x1 : Shape := ⟨2, ![1, 1]⟩
abbrev S4096x1 : Shape := ⟨2, ![4096, 1]⟩
abbrev S64x1 : Shape := ⟨2, ![64, 1]⟩
abbrev S4096x256 : Shape := ⟨2, ![4096, 256]⟩
abbrev S64 : Shape := ⟨1, ![64]⟩

abbrev nBuf : Space → Nat
  | .hbm => 20
  | .vmem => 10
  | .smem => 0
  | _ => 0

abbrev bufTy : (tb : Table) → Fin (tcTables nBuf tb) → BufTy
  | .hbm, ⟨0, _⟩ => ⟨S64x64x64, .f32⟩
  | .hbm, ⟨1, _⟩ => ⟨S1x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S_, .f32⟩
  | .hbm, ⟨8, _⟩ => ⟨S64x64, .f32⟩
  | .hbm, ⟨9, _⟩ => ⟨S64x64x1, .f32⟩
  | .hbm, ⟨10, _⟩ => ⟨S64x64x64, .f32⟩
  | .hbm, ⟨11, _⟩ => ⟨S64x64x64, .f32⟩
  | .hbm, ⟨12, _⟩ => ⟨S4096x64, .f32⟩
  | .hbm, ⟨13, _⟩ => ⟨S256x256, .bf16⟩
  | .hbm, ⟨14, _⟩ => ⟨S256x1, .bf16⟩
  | .hbm, ⟨15, _⟩ => ⟨S1x256, .f32⟩
  | .hbm, ⟨16, _⟩ => ⟨S1x256, .f32⟩
  | .hbm, ⟨17, _⟩ => ⟨S1x1, .f32⟩
  | .hbm, ⟨18, _⟩ => ⟨S4096x1, .f32⟩
  | .hbm, ⟨19, _⟩ => ⟨S64x64, .f32⟩
  | .local _ .vmem, ⟨0, _⟩ => ⟨S64x64, .f32⟩
  | .local _ .vmem, ⟨1, _⟩ => ⟨S64x64, .f32⟩
  | .local _ .vmem, ⟨2, _⟩ => ⟨S1x256, .f32⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S256x1, .bf16⟩
  | .local _ .vmem, ⟨7, _⟩ => ⟨S1x1, .f32⟩
  | .local _ .vmem, ⟨8, _⟩ => ⟨S64x1, .f32⟩
  | .local _ .vmem, ⟨9, _⟩ => ⟨S64x1, .f32⟩
  | _, _ => ⟨S64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S64x64x64_S64x64_d2 : S64x64x64.ReducesTo [2] S64x64
  h_S_ : 0 < S_.numel
  bcast_S64x64_S64x64x1_0_1 : S64x64.BroadcastsInDim S64x64x1 (![0, 1] : Fin 2 → Fin S64x64x1.rank)
  bcast_S64x64x1_S64x64x64_0_1_2 : S64x64x1.BroadcastsInDim S64x64x64 (![0, 1, 2] : Fin 3 → Fin S64x64x64.rank)
  shapeCasts_S64x64x64_S4096x64 : S64x64x64.ShapeCasts S4096x64
  bitsLt_bf16_f32 : FTy.bits .bf16 < FTy.bits .f32
  shapeCasts_S256_S1x256 : S256.ShapeCasts S1x256
  shapeCasts_S1_S1x1 : S1.ShapeCasts S1x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64x64_S4096x1 : S64x64.ShapeCasts S4096x1
  inb_S1x256_S1x256_0_0 : ∀ a, (![0, 0] : Fin 2 → Nat) a + S1x256.size a ≤ S1x256.size a
  h_S1x256 : 0 < S1x256.numel
  broadcasts_S4096x1_S4096x256 : S4096x1.Broadcasts S4096x256
  broadcasts_S1x256_S4096x256 : S1x256.Broadcasts S4096x256
  shapeCasts_S1x256_S1x256 : S1x256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  shapeCasts_S4096x1_S64x64 : S4096x1.ShapeCasts S64x64
  reduces_S64x64_S64 : S64x64.Reduces [1] S64
  shapeCasts_S64_S64x1 : S64.ShapeCasts S64x1
  inb_S64x1_S64x1_0_0 : ∀ a, (![0, 0] : Fin 2 → Nat) a + S64x1.size a ≤ S64x1.size a
  h_S64x1 : 0 < S64x1.numel
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64.size a ≤ S4096x64.size a
  hwx0_0 : ∀ i : grid0.Coords, EltTy.bits .f32 = 32 ∨ (Rect.block (s := S4096x64) S64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .bf16 = 32 ∨ (Rect.block (s := S256x1) S256x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S4096x1.size a
  hwx0_7 : ∀ i : grid0.Coords, EltTy.bits .f32 = 32 ∨ (Rect.block (s := S4096x1) S64x1.size (cc0_transform_7 i) (hinb0_7 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

abbrev win0_0 : Pipeline.Window sig grid0 :=
  Pipeline.Window.ofSpec (Memref.whole main_v4) S64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S64x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x64x64 : Shape := ⟨3, ![64, 64, 64]⟩
abbrev S1x256 : Shape := ⟨2, ![1, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩
abbrev S64x64 : Shape := ⟨2, ![64, 64]⟩
abbrev S64x64x1 : Shape := ⟨3, ![64, 64, 1]⟩
abbrev S64x64x64x1 : Shape := ⟨4, ![64, 64, 64, 1]⟩
abbrev S1x1x1x256 : Shape := ⟨4, ![1, 1, 1, 256]⟩
abbrev S64x64x64x256 : Shape := ⟨4, ![64, 64, 64, 256]⟩
abbrev S1x1x1x1 : Shape := ⟨4, ![1, 1, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S64x64x64, .f32⟩
  | .hbm, ⟨1, _⟩ => ⟨S1x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S_, .f32⟩
  | .hbm, ⟨8, _⟩ => ⟨S64x64, .f32⟩
  | .hbm, ⟨9, _⟩ => ⟨S64x64x1, .f32⟩
  | .hbm, ⟨10, _⟩ => ⟨S64x64x64, .f32⟩
  | .hbm, ⟨11, _⟩ => ⟨S64x64x64, .f32⟩
  | .hbm, ⟨12, _⟩ => ⟨S64x64x64x1, .f32⟩
  | .hbm, ⟨13, _⟩ => ⟨S256, .f32⟩
  | .hbm, ⟨14, _⟩ => ⟨S1x1x1x256, .f32⟩
  | .hbm, ⟨15, _⟩ => ⟨S64x64x64x256, .f32⟩
  | .hbm, ⟨16, _⟩ => ⟨S64x64x64x256, .f32⟩
  | .hbm, ⟨17, _⟩ => ⟨S64x64x64x256, .f32⟩
  | .hbm, ⟨18, _⟩ => ⟨S1x1x1x256, .f32⟩
  | .hbm, ⟨19, _⟩ => ⟨S64x64x64x256, .f32⟩
  | .hbm, ⟨20, _⟩ => ⟨S64x64x64x256, .f32⟩
  | .hbm, ⟨21, _⟩ => ⟨S_, .f32⟩
  | .hbm, ⟨22, _⟩ => ⟨S64x64x64x256, .f32⟩
  | .hbm, ⟨23, _⟩ => ⟨S64x64x64x256, .f32⟩
  | .hbm, ⟨24, _⟩ => ⟨S64x64x64x256, .f32⟩
  | .hbm, ⟨25, _⟩ => ⟨S1x1x1x256, .f32⟩
  | .hbm, ⟨26, _⟩ => ⟨S64x64x64x256, .f32⟩
  | .hbm, ⟨27, _⟩ => ⟨S64x64x64x256, .f32⟩
  | .hbm, ⟨28, _⟩ => ⟨S_, .f32⟩
  | .hbm, ⟨29, _⟩ => ⟨S64x64x64x256, .f32⟩
  | .hbm, ⟨30, _⟩ => ⟨S64x64x64x256, .f32⟩
  | .hbm, ⟨31, _⟩ => ⟨S64x64x64x1, .f32⟩
  | .hbm, ⟨32, _⟩ => ⟨S1x1x1x1, .f32⟩
  | .hbm, ⟨33, _⟩ => ⟨S64x64x64x1, .f32⟩
  | .hbm, ⟨34, _⟩ => ⟨S64x64x64x1, .f32⟩
  | .hbm, ⟨35, _⟩ => ⟨S64x64x64, .f32⟩
  | .hbm, ⟨36, _⟩ => ⟨S64x64x64, .f32⟩
  | .hbm, ⟨37, _⟩ => ⟨S_, .f32⟩
  | .hbm, ⟨38, _⟩ => ⟨S64x64, .f32⟩
  | _, _ => ⟨S64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call1_cst : Ref sig .tc := ⟨.hbm, 28, rfl⟩
abbrev main_call1_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  reducesTo_S64x64x64_S64x64_d2 : S64x64x64.ReducesTo [2] S64x64
  h_S_ : 0 < S_.numel
  bcast_S64x64_S64x64x1_0_1 : S64x64.BroadcastsInDim S64x64x1 (![0, 1] : Fin 2 → Fin S64x64x1.rank)
  bcast_S64x64x1_S64x64x64_0_1_2 : S64x64x1.BroadcastsInDim S64x64x64 (![0, 1, 2] : Fin 3 → Fin S64x64x64.rank)
  bcast_S64x64x64_S64x64x64x1_0_1_2 : S64x64x64.BroadcastsInDim S64x64x64x1 (![0, 1, 2] : Fin 3 → Fin S64x64x64x1.rank)
  shapeCasts_S1x256_S256 : S1x256.ShapeCasts S256
  bcast_S256_S1x1x1x256_3 : S256.BroadcastsInDim S1x1x1x256 (![3] : Fin 1 → Fin S1x1x1x256.rank)
  bcast_S64x64x64x1_S64x64x64x256_0_1_2_3 : S64x64x64x1.BroadcastsInDim S64x64x64x256 (![0, 1, 2, 3] : Fin 4 → Fin S64x64x64x256.rank)
  bcast_S1x1x1x256_S64x64x64x256_0_1_2_3 : S1x1x1x256.BroadcastsInDim S64x64x64x256 (![0, 1, 2, 3] : Fin 4 → Fin S64x64x64x256.rank)
  bcast_S_S64x64x64x256 : S_.BroadcastsInDim S64x64x64x256 (![] : Fin 0 → Fin S64x64x64x256.rank)
  bcast_S1_S1x1x1x1_3 : S1.BroadcastsInDim S1x1x1x1 (![3] : Fin 1 → Fin S1x1x1x1.rank)
  bcast_S1x1x1x1_S64x64x64x1_0_1_2_3 : S1x1x1x1.BroadcastsInDim S64x64x64x1 (![0, 1, 2, 3] : Fin 4 → Fin S64x64x64x1.rank)
  shapeCasts_S64x64x64x1_S64x64x64 : S64x64x64x1.ShapeCasts S64x64x64
  dot_S64x64x64x256_S256x256_S64x64x64x256_3_0_012_1_n_n_wf : DotDims.WF S64x64x64x256 S256x256 S64x64x64x256 [3] [0] [0, 1, 2] [1] [] []
  dot_S64x64x64x256_S256x1_S64x64x64x1_3_0_012_1_n_n_wf : DotDims.WF S64x64x64x256 S256x1 S64x64x64x1 [3] [0] [0, 1, 2] [1] [] []

variable [Facts₀]

def dot_S64x64x64x256_S256x256_S64x64x64x256_3_0_012_1_n_n : DotDims S64x64x64x256 S256x256 S64x64x64x256 where
  lhsContracting := [3]
  rhsContracting := [0]
  lhsNonContracting := [0, 1, 2]
  rhsNonContracting := [1]
  lhsBatch := []
  rhsBatch := []
  wf := dot_S64x64x64x256_S256x256_S64x64x64x256_3_0_012_1_n_n_wf
def dot_S64x64x64x256_S256x1_S64x64x64x1_3_0_012_1_n_n : DotDims S64x64x64x256 S256x1 S64x64x64x1 where
  lhsContracting := [3]
  rhsContracting := [0]
  lhsNonContracting := [0, 1, 2]
  rhsNonContracting := [1]
  lhsBatch := []
  rhsBatch := []
  wf := dot_S64x64x64x256_S256x1_S64x64x64x1_3_0_012_1_n_n_wf

class Facts : Prop extends Facts₀ where

variable [Facts]
-- ==== Proof.Spec.lean ====
/-
  The function both programs compute, on the extended reals.

  Every scalar `n` of the normalized input goes through a three-layer perceptron with 256 hidden units:
  `layer1 k = max (n · W1 k + b1 k) 0`, `layer2 h = max (∑ k, layer1 k · W2 k h + b2 h) 0`,
  `weight = ∑ h, layer2 h · W3 h + b3`; the result at `(b, f)` is the weighted sum `∑ l, weight (n l) · n l` over the
  64 scalars `n l` of row `(b, f)`. The parameters are carried as one record, filled either from the parameter arrays
  as the programs receive them or from the two-dimensional blocks the kernel body loads.
-/
import Idealize.ShloMosaic.Lib.ValueIdx

noncomputable section

namespace Cert.MlpSpec

open Idealize.ShloMosaic Idealize.ShloMosaic.ValueIdx

/-- The perceptron's parameters, entry by entry. -/
structure Params where
  W1 : Fin 256 → EReal
  b1 : Fin 256 → EReal
  W2 : Fin 256 → Fin 256 → EReal
  b2 : Fin 256 → EReal
  W3 : Fin 256 → EReal
  b3 : EReal

/-- The first layer's unit `k` at the scalar `n`. -/
def layer1 (P : Params) (n : EReal) (k : Fin 256) : EReal := max (n * P.W1 k + P.b1 k) 0

/-- The second layer's unit `h` at the scalar `n`. -/
def layer2 (P : Params) (n : EReal) (h : Fin 256) : EReal := max ((∑ k : Fin 256, layer1 P n k * P.W2 k h) + P.b2 h) 0

/-- The perceptron's output at the scalar `n`. -/
def weight (P : Params) (n : EReal) : EReal := (∑ h : Fin 256, layer2 P n h * P.W3 h) + P.b3

/-- One result entry from the 64 scalars of its row: each scalar weighted by the perceptron's output at it. -/
def rowOut (P : Params) (row : Fin 64 → EReal) : EReal := ∑ l : Fin 64, weight P (row l) * row l

/-- The result at `(b, f)` from the normalized input. -/
def resultAt (P : Params) (nrm : (⟨3, ![64, 64, 64]⟩ : Shape).Idx → EReal) (b f : Fin 64) : EReal :=
  rowOut P fun l => nrm (ix3 b f l)

/-- The whole result array. -/
def result (P : Params) (nrm : (⟨3, ![64, 64, 64]⟩ : Shape).Idx → EReal) : (⟨2, ![64, 64]⟩ : Shape).Idx → EReal :=
  fun i => resultAt P nrm ⟨(i 0).val, idx2_lt0 i⟩ ⟨(i 1).val, idx2_lt1 i⟩

theorem result_ix2 (P : Params) (nrm : (⟨3, ![64, 64, 64]⟩ : Shape).Idx → EReal) (b f : Fin 64) :
    result P nrm (ix2 b f) = resultAt P nrm b f := rfl

/-- The parameters read from the arrays the programs are given: `W1 : [1, 256]`, `b1 : [256]`, `W2 : [256, 256]`,
    `b2 : [256]`, `W3 : [256, 1]`, `b3 : [1]`. -/
def ofArgs (a1 : (⟨2, ![1, 256]⟩ : Shape).Idx → EReal) (a2 : (⟨1, ![256]⟩ : Shape).Idx → EReal)
    (a3 : (⟨2, ![256, 256]⟩ : Shape).Idx → EReal) (a4 : (⟨1, ![256]⟩ : Shape).Idx → EReal)
    (a5 : (⟨2, ![256, 1]⟩ : Shape).Idx → EReal) (a6 : (⟨1, ![1]⟩ : Shape).Idx → EReal) : Params where
  W1 k := a1 (ix2 (0 : Fin 1) k)
  b1 k := a2 (ix1 k)
  W2 k h := a3 (ix2 k h)
  b2 h := a4 (ix1 h)
  W3 h := a5 (ix2 h (0 : Fin 1))
  b3 := a6 (ix1 (0 : Fin 1))

/-- The parameters read from the blocks the kernel body loads: the biases arrive as one-row matrices. -/
def ofBlocks (x1 x2 : (⟨2, ![1, 256]⟩ : Shape).Idx → EReal) (x3 : (⟨2, ![256, 256]⟩ : Shape).Idx → EReal)
    (x4 : (⟨2, ![1, 256]⟩ : Shape).Idx → EReal) (x5 : (⟨2, ![256, 1]⟩ : Shape).Idx → EReal)
    (x6 : (⟨2, ![1, 1]⟩ : Shape).Idx → EReal) : Params where
  W1 k := x1 (ix2 (0 : Fin 1) k)
  b1 k := x2 (ix2 (0 : Fin 1) k)
  W2 k h := x3 (ix2 k h)
  b2 h := x4 (ix2 (0 : Fin 1) h)
  W3 h := x5 (ix2 h (0 : Fin 1))
  b3 := x6 (ix2 (0 : Fin 1) (0 : Fin 1))

end Cert.MlpSpec

end
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.LibColumn.lean ====
/-
  Column forms of the layout operations, read at an index written with the coordinate constructors:
  what a row reduction with `keepdims` needs. A vector `[a]` cast to a column `[a, 1]` reads, at `(i, u)`,
  the vector at `i` (the row-major position of `(i, u)` in `[a, 1]` is `i`); a column `[a, 1]` broadcast
  to `[a, b]` reads, at `(p, c)`, the column at row `p` (the unit axis contributes coordinate `0`).
-/
import Idealize.ShloMosaic.Lib.ValueLayout

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  What the kernel body stores, entry by entry: row `p` of the stored column is the perceptron-weighted sum of row `p`
  of the loaded input block (`MlpSpec.rowOut`), the parameters read from the loaded parameter blocks.

  The body flattens the `[64, 64]` block to a column of `4096` scalars (row-major), runs the three layers on all
  of them at once (two matrix products into a zero accumulator, the biases broadcast along the rows), folds the column
  of weights back to `[64, 64]`, multiplies by the block and sums each row. Read at the flat position `r`, each layer
  is the specification's layer at the scalar `x (r / 64, r % 64)`; the position of `(p, l)` is `p * 64 + l`.
-/
import proofs.«146023_j64604898066628_1_alg».proof.Proof.Gen.KernelIdeal.Skeleton
import proofs.«146023_j64604898066628_1_alg».proof.Proof.Spec
import proofs.«146023_j64604898066628_1_alg».proof.Proof.LibRowOps
import proofs.«146023_j64604898066628_1_alg».proof.Proof.LibColumn
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.TcCoe Idealize.ShloMosaic.ValueIdx

/-! ## The two matrix products are plain ones -/

theorem dot1_eq : dot_S4096x256_S256x256_S4096x256_1_0_0_1_n_n = DotDims.plain 4096 256 256 := rfl

theorem dot2_eq : dot_S4096x256_S256x1_S4096x1_1_0_0_1_n_n = DotDims.plain 4096 256 1 := rfl

/-- The zero word is the extended real `0`. -/
theorem zero_word : (Scalar.ofBits (F := Ideal) .f32 0x00000000#32 : EReal) = 0 := Ideal.ofBits_zero_f32

/-! ## The flattening and its inverse -/

/-- The entry of the block at the row-major position `r`: row `r / 64`, column `r % 64`. -/
def scal (x0 : FVec Ideal S64x64 .f32) (r : Fin 4096) : EReal :=
  x0 (ix2 (⟨r.val / 64, Nat.div_lt_of_lt_mul r.isLt⟩ : Fin 64) (⟨r.val % 64, Nat.mod_lt _ (by decide)⟩ : Fin 64))

/-- At the position of `(p, l)` that entry is the block at `(p, l)`. -/
theorem scal_pos (x0 : FVec Ideal S64x64 .f32) (p l : Fin 64) (h : p.val * 64 + l.val < 4096) :
    scal x0 ⟨p.val * 64 + l.val, h⟩ = x0 (ix2 p l) := by
  have hl := l.isLt
  exact congrArg x0 (funext fun a => Fin.ext (by
    match a with
    | ⟨0, _⟩ => show (p.val * 64 + l.val) / 64 = p.val; omega
    | ⟨1, _⟩ => show (p.val * 64 + l.val) % 64 = l.val; omega))

/-- The block (cast to its own shape) cast to a column, at row `r`. -/
theorem flat_apply (x0 : FVec Ideal S64x64 .f32) (r : Fin 4096) (u : Fin 1) :
    shapeCast S4096x1 (shapeCast S64x64 x0 shapeCasts_S64x64_S64x64) shapeCasts_S64x64_S4096x1 (ix2 r u) = scal x0 r := by
  rw [shapeCast_self]
  refine shapeCast_apply x0 _ _ _ ?_
  rw [Shape.rowMajor_val_two, Shape.rowMajor_val_two]
  show (r.val / 64) * 64 + r.val % 64 = r.val * 1 + u.val
  have := u.isLt
  omega

/-- A column of `4096` cast to `[64, 64]`, at `(p, l)`: the column at `p * 64 + l`. -/
theorem unflat_apply (w : FVec Ideal S4096x1 .f32) (p l : Fin 64) (h : p.val * 64 + l.val < 4096) :
    shapeCast S64x64 w shapeCasts_S4096x1_S64x64 (ix2 p l) = w (ix2 (⟨p.val * 64 + l.val, h⟩ : Fin 4096) (0 : Fin 1)) := by
  refine shapeCast_apply w _ _ _ ?_
  rw [Shape.rowMajor_val_two, Shape.rowMajor_val_two]
  show (p.val * 64 + l.val) * 1 + 0 = p.val * 64 + l.val
  omega

/-! ## The three layers, on the column of all scalars -/

section Layers
variable (x0 : FVec Ideal S64x64 .f32) (x1 x2 : FVec Ideal S1x256 .f32) (x3 : FVec Ideal S256x256 .bf16)
  (x4 : FVec Ideal S1x256 .f32) (x5 : FVec Ideal S256x1 .bf16) (x6 : FVec Ideal S1x1 .f32)

/-- The first layer on every scalar: `[4096, 256]`. -/
def hid1 : FVec Ideal S4096x256 .bf16 :=
  truncf .bf16
    (maximumf
      (addf
        (mulf
          (broadcastTo S4096x256
            (shapeCast S4096x1 (shapeCast S64x64 x0 shapeCasts_S64x64_S64x64) shapeCasts_S64x64_S4096x1)
            broadcasts_S4096x1_S4096x256)
          (broadcastTo S4096x256 x1 broadcasts_S1x256_S4096x256))
        (broadcastTo S4096x256 (shapeCast S1x256 x2 shapeCasts_S1x256_S1x256) broadcasts_S1x256_S4096x256))
      (broadcast S4096x256 (Scalar.ofBits (F := Ideal) .f32 0x00000000#32)))
    bitsLt_bf16_f32

/-- The second layer on every scalar: `[4096, 256]`. -/
def hid2 : FVec Ideal S4096x256 .bf16 :=
  truncf .bf16
    (maximumf
      (addf
        (matmul dot_S4096x256_S256x256_S4096x256_1_0_0_1_n_n none (hid1 x0 x1 x2)
          (shapeCast S256x256 x3 shapeCasts_S256x256_S256x256) (constant (F := Ideal) S4096x256 .f32 0x00000000#32))
        (broadcastTo S4096x256 (shapeCast S1x256 x4 shapeCasts_S1x256_S1x256) broadcasts_S1x256_S4096x256))
      (broadcast S4096x256 (Scalar.ofBits (F := Ideal) .f32 0x00000000#32)))
    bitsLt_bf16_f32

/-- The perceptron's output on every scalar: a column of `4096`. -/
def wcol : FVec Ideal S4096x1 .f32 :=
  addf
    (matmul dot_S4096x256_S256x1_S4096x1_1_0_0_1_n_n none (hid2 x0 x1 x2 x3 x4)
      (shapeCast S256x1 x5 shapeCasts_S256x1_S256x1) (constant (F := Ideal) S4096x1 .f32 0x00000000#32))
    (broadcastTo S4096x1 (shapeCast S1x1 x6 shapeCasts_S1x1_S1x1) broadcasts_S1x1_S4096x1)

/-- The stored column is the row sums of the folded weights times the block, as a column. -/
theorem pay_eq :
    k0_pay1 (F := Ideal) x0 x1 x2 x3 x4 x5 x6
      = shapeCast S64x1
          (multiReduction (F := Ideal) .add [1] S64
            (mulf (shapeCast S64x64 (wcol x0 x1 x2 x3 x4 x5 x6) shapeCasts_S4096x1_S64x64)
              (shapeCast S64x64 x0 shapeCasts_S64x64_S64x64))
            0x00000000#32 reduces_S64x64_S64 (.inl rfl) rfl)
          shapeCasts_S64_S64x1 := rfl

/-- The first layer at the flat position `r`, unit `k`. -/
theorem hid1_apply (r : Fin 4096) (k : Fin 256) :
    hid1 x0 x1 x2 (ix2 r k) = Cert.MlpSpec.layer1 (Cert.MlpSpec.ofBlocks x1 x2 x3 x4 x5 x6) (scal x0 r) k := by
  unfold hid1
  rw [truncf_apply, maximumf_apply, addf_apply, mulf_apply, broadcast_apply,
    Cert.LibColumn.broadcastTo_a1_ab_apply, broadcastTo_1b_ab_apply, broadcastTo_1b_ab_apply, flat_apply, shapeCast_self, zero_word]
  rfl

/-- The second layer at the flat position `r`, unit `h`. -/
theorem hid2_apply (r : Fin 4096) (h : Fin 256) :
    hid2 x0 x1 x2 x3 x4 (ix2 r h) = Cert.MlpSpec.layer2 (Cert.MlpSpec.ofBlocks x1 x2 x3 x4 x5 x6) (scal x0 r) h := by
  unfold hid2
  rw [truncf_apply, maximumf_apply, addf_apply, broadcast_apply, broadcastTo_1b_ab_apply, shapeCast_self, shapeCast_self,
    zero_word, dot1_eq]
  refine congrArg (fun s => max (s + x4 (ix2 (0 : Fin 1) h)) 0) ?_
  refine (Cert.LibRowOps.matmul_plain_zero_apply 4096 256 256 _ _ r h).trans ?_
  exact Finset.sum_congr rfl fun k _ => congrArg (· * x3 (ix2 k h)) (hid1_apply x0 x1 x2 x3 x4 x5 x6 r k)

/-- The perceptron's output at the flat position `r`. -/
theorem wcol_apply (r : Fin 4096) (u : Fin 1) :
    wcol x0 x1 x2 x3 x4 x5 x6 (ix2 r u) = Cert.MlpSpec.weight (Cert.MlpSpec.ofBlocks x1 x2 x3 x4 x5 x6) (scal x0 r) := by
  obtain rfl : u = 0 := Subsingleton.elim _ _
  unfold wcol
  rw [addf_apply, broadcastTo_1b_ab_apply, shapeCast_self, shapeCast_self, dot2_eq]
  refine congrArg (fun s => s + x6 (ix2 (0 : Fin 1) (0 : Fin 1))) ?_
  refine (Cert.LibRowOps.matmul_plain_zero_apply 4096 256 1 _ _ r 0).trans ?_
  exact Finset.sum_congr rfl fun h _ => congrArg (· * x5 (ix2 h (0 : Fin 1))) (hid2_apply x0 x1 x2 x3 x4 x5 x6 r h)

end Layers

/-- The stored column at row `p`: the specification's row result of row `p` of the input block. -/
theorem pay_apply (x0 : FVec Ideal S64x64 .f32) (x1 x2 : FVec Ideal S1x256 .f32) (x3 : FVec Ideal S256x256 .bf16)
    (x4 : FVec Ideal S1x256 .f32) (x5 : FVec Ideal S256x1 .bf16) (x6 : FVec Ideal S1x1 .f32) (p : Fin 64) (u : Fin 1) :
    k0_pay1 (F := Ideal) x0 x1 x2 x3 x4 x5 x6 (ix2 p u)
      = Cert.MlpSpec.rowOut (Cert.MlpSpec.ofBlocks x1 x2 x3 x4 x5 x6) (fun l => x0 (ix2 p l)) := by
  refine (congrFun (pay_eq x0 x1 x2 x3 x4 x5 x6) (ix2 p u)).trans ?_
  refine (Cert.LibColumn.shapeCast_a_a1_apply _ _ p u).trans ?_
  refine (Cert.LibRowOps.rowSum_apply _ _ _ _ _ p).trans ?_
  refine Finset.sum_congr rfl fun l _ => ?_
  have hpl : p.val * 64 + l.val < 4096 := by have := p.isLt; have := l.isLt; omega
  rw [mulf_apply, shapeCast_self, unflat_apply _ p l hpl, wcol_apply, scal_pos]

end Cert.KernelIdeal.Payload

end
-- ==== Proof.KernelValue.lean ====
/-
  The kernel program's result array, as one function of the argument arrays.

  Before the region the host normalizes the input (`norm = inc_m / sum(inc_m, axis = -1)`, kept here as one opaque term
  `normArr`), lays it out as 4096 rows of 64 scalars, and re-lays the parameters (the biases as one-row matrices, the two
  weight matrices through a format change that is the identity on extended reals). Grid point `t` of the region loads rows
  `64 t … 64 t + 63` of the normalized rows and all of every parameter, and writes back rows `64 t … 64 t + 63` of a
  4096-entry column: row `r` of that column is the perceptron-weighted sum of row `r` of the normalized rows. The 64 points'
  blocks tile the column, so after the region the column is that function of the arrays; the host then reads the column as
  the `[64, 64]` result, entry `(b, f)` being row `64 b + f`, which is row `(b, f)` of the normalized input.
-/
import proofs.«146023_j64604898066628_1_alg».proof.Proof.Gen.KernelIdeal.Frame
import proofs.«146023_j64604898066628_1_alg».proof.Proof.Payload
import Idealize.ShloMosaic.Lib.Pipeline.Value
import Idealize.ShloMosaic.Lib.ValueLayout
import Idealize.ShloMosaic.Lib.StableHlo.Run

noncomputable section

namespace Cert.KernelIdeal.KValue

open Cert.KernelIdeal Cert.KernelIdeal.Gen Cert.MlpSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the region finds -/

/-- The normalized input as the host computes it: each entry divided by the sum of its last-axis row. Never opened. -/
def normArr (x : FVec Ideal S64x64x64 .f32) : FVec Ideal S64x64x64 .f32 :=
  Host.divf (F := Ideal) x (broadcastInDim S64x64x64 ![0, 1, 2] bcast_S64x64x1_S64x64x64_0_1_2
    (broadcastInDim S64x64x1 ![0, 1] bcast_S64x64_S64x64x1_0_1
      (Host.reduceAdd (F := Ideal) x (constant (F := Ideal) S_ .f32 0x00000000#32) reducesTo_S64x64x64_S64x64_d2 h_S_)))

/-- The arrays as the region finds them, each at its literal type. -/
abbrev rowsArr (c : Dev nD) : FVec Ideal S4096x64 .f32 := V m c main_v4
abbrev w1Arr (c : Dev nD) : FVec Ideal S1x256 .f32 := V m c main_arg1
abbrev b1Arr (c : Dev nD) : FVec Ideal S1x256 .f32 := V m c main_v7
abbrev w2Arr (c : Dev nD) : FVec Ideal S256x256 .bf16 := V m c main_v5
abbrev b2Arr (c : Dev nD) : FVec Ideal S1x256 .f32 := V m c main_v8
abbrev w3Arr (c : Dev nD) : FVec Ideal S256x1 .bf16 := V m c main_v6
abbrev b3Arr (c : Dev nD) : FVec Ideal S1x1 .f32 := V m c main_v9

theorem rowsArr_eq (c : Dev nD) :
    rowsArr m c = shapeCast S4096x64 (normArr (m ((c : Thread nD τ).loc main_arg0))) shapeCasts_S64x64x64_S4096x64 := by
  show StableHlo.after hostOps0 (fun b => m (c, b)) (Proc.devRef .tc main_v4) = _
  after_results; rfl
theorem w1Arr_eq (c : Dev nD) : w1Arr m c = m ((c : Thread nD τ).loc main_arg1) := V_main_arg1 m c
theorem b1Arr_eq (c : Dev nD) : b1Arr m c = shapeCast S1x256 (m ((c : Thread nD τ).loc main_arg2)) shapeCasts_S256_S1x256 := by
  show StableHlo.after hostOps0 (fun b => m (c, b)) (Proc.devRef .tc main_v7) = _
  after_results; rfl
theorem w2Arr_eq (c : Dev nD) : w2Arr m c = truncf .bf16 (m ((c : Thread nD τ).loc main_arg3)) bitsLt_bf16_f32 := by
  show StableHlo.after hostOps0 (fun b => m (c, b)) (Proc.devRef .tc main_v5) = _
  after_results
theorem b2Arr_eq (c : Dev nD) : b2Arr m c = shapeCast S1x256 (m ((c : Thread nD τ).loc main_arg4)) shapeCasts_S256_S1x256 := by
  show StableHlo.after hostOps0 (fun b => m (c, b)) (Proc.devRef .tc main_v8) = _
  after_results; rfl
theorem w3Arr_eq (c : Dev nD) : w3Arr m c = truncf .bf16 (m ((c : Thread nD τ).loc main_arg5)) bitsLt_bf16_f32 := by
  show StableHlo.after hostOps0 (fun b => m (c, b)) (Proc.devRef .tc main_v6) = _
  after_results
theorem b3Arr_eq (c : Dev nD) : b3Arr m c = shapeCast S1x1 (m ((c : Thread nD τ).loc main_arg6)) shapeCasts_S1_S1x1 := by
  show StableHlo.after hostOps0 (fun b => m (c, b)) (Proc.devRef .tc main_v9) = _
  after_results; rfl

/-! ## The blocks a grid point loads -/

/-- The index maps over the grid: the input rows and the output column move with the point, every parameter stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

abbrev rowsBlk (c : Dev nD) (t : Fin cfg0.N) : FVec Ideal S64x64 .f32 := iblk m c 0 t
abbrev w1Blk (c : Dev nD) (t : Fin cfg0.N) : FVec Ideal S1x256 .f32 := iblk m c 1 t
abbrev b1Blk (c : Dev nD) (t : Fin cfg0.N) : FVec Ideal S1x256 .f32 := iblk m c 2 t
abbrev w2Blk (c : Dev nD) (t : Fin cfg0.N) : FVec Ideal S256x256 .bf16 := iblk m c 3 t
abbrev b2Blk (c : Dev nD) (t : Fin cfg0.N) : FVec Ideal S1x256 .f32 := iblk m c 4 t
abbrev w3Blk (c : Dev nD) (t : Fin cfg0.N) : FVec Ideal S256x1 .bf16 := iblk m c 5 t
abbrev b3Blk (c : Dev nD) (t : Fin cfg0.N) : FVec Ideal S1x1 .f32 := iblk m c 6 t

/-- Point `t`'s input block at `(p, l)` is the normalized rows at `(64 t + p, l)`. -/
theorem rowsBlk_apply (c : Dev nD) (t : Fin cfg0.N) (p l : Fin 64) (r : Fin 4096) (hr : r.val = t.val * 64 + p.val) :
    rowsBlk m c t (ix2 p l) = rowsArr m c (ix2 r l) := by
  show V m c main_v4 (((cfg0.win 0).blk t).view.emb (ix2 p l)) = V m c main_v4 (ix2 r l)
  congr 1
  funext a; apply Fin.ext
  obtain ⟨e0, e1, -⟩ := idx_facts t
  match a with
  | ⟨0, _⟩ => show win0_0.index t (0 : Fin 2) * 64 + 1 * p.val = r.val; rw [e0, hr]; omega
  | ⟨1, _⟩ => show win0_0.index t (1 : Fin 2) * 64 + 1 * l.val = l.val; rw [e1]; omega

/-- Every parameter's block is its whole array. -/
theorem w1Blk_eq (c : Dev nD) (t : Fin cfg0.N) : w1Blk m c t = w1Arr m c := by
  funext y
  show V m c main_arg1 (((cfg0.win 1).blk t).view.emb y) = V m c main_arg1 y
  congr 1
  funext a; apply Fin.ext
  obtain ⟨-, -, e0, e1, -⟩ := idx_facts t
  match a with
  | ⟨0, _⟩ => show win0_1.index t (0 : Fin 2) * 1 + 1 * (y 0).val = (y 0).val; rw [e0]; omega
  | ⟨1, _⟩ => show win0_1.index t (1 : Fin 2) * 256 + 1 * (y 1).val = (y 1).val; rw [e1]; omega
theorem b1Blk_eq (c : Dev nD) (t : Fin cfg0.N) : b1Blk m c t = b1Arr m c := by
  funext y
  show V m c main_v7 (((cfg0.win 2).blk t).view.emb y) = V m c main_v7 y
  congr 1
  funext a; apply Fin.ext
  obtain ⟨-, -, -, -, e0, e1, -⟩ := idx_facts t
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega
theorem w2Blk_eq (c : Dev nD) (t : Fin cfg0.N) : w2Blk m c t = w2Arr m c := by
  funext y
  show V m c main_v5 (((cfg0.win 3).blk t).view.emb y) = V m c main_v5 y
  congr 1
  funext a; apply Fin.ext
  obtain ⟨-, -, -, -, -, -, e0, e1, -⟩ := idx_facts t
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega
theorem b2Blk_eq (c : Dev nD) (t : Fin cfg0.N) : b2Blk m c t = b2Arr m c := by
  funext y
  show V m c main_v8 (((cfg0.win 4).blk t).view.emb y) = V m c main_v8 y
  congr 1
  funext a; apply Fin.ext
  obtain ⟨-, -, -, -, -, -, -, -, e0, e1, -⟩ := idx_facts t
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega
theorem w3Blk_eq (c : Dev nD) (t : Fin cfg0.N) : w3Blk m c t = w3Arr m c := by
  funext y
  show V m c main_v6 (((cfg0.win 5).blk t).view.emb y) = V m c main_v6 y
  congr 1
  funext a; apply Fin.ext
  obtain ⟨-, -, -, -, -, -, -, -, -, -, e0, e1, -⟩ := idx_facts t
  match a with
  | ⟨0, _⟩ => show win0_5.index t (0 : Fin 2) * 256 + 1 * (y 0).val = (y 0).val; rw [e0]; omega
  | ⟨1, _⟩ => show win0_5.index t (1 : Fin 2) * 1 + 1 * (y 1).val = (y 1).val; rw [e1]; omega
theorem b3Blk_eq (c : Dev nD) (t : Fin cfg0.N) : b3Blk m c t = b3Arr m c := by
  funext y
  show V m c main_v9 (((cfg0.win 6).blk t).view.emb y) = V m c main_v9 y
  congr 1
  funext a; apply Fin.ext
  obtain ⟨-, -, -, -, -, -, -, -, -, -, -, -, e0, e1, -⟩ := idx_facts t
  match a with
  | ⟨0, _⟩ => show win0_6.index t (0 : Fin 2) * 1 + 1 * (y 0).val = (y 0).val; rw [e0]; omega
  | ⟨1, _⟩ => show win0_6.index t (1 : Fin 2) * 1 + 1 * (y 1).val = (y 1).val; rw [e1]; omega

/-! ## The column the region leaves -/

/-- Row `r` of the column: the perceptron-weighted sum of row `r` of the rows array. -/
def colOf (P : Params) (rows : FVec Ideal S4096x64 .f32) : FVec Ideal S4096x1 .f32 :=
  fun i => rowOut P fun l => rows (ix2 (⟨(i 0).val, idx2_lt0 i⟩ : Fin 4096) l)

/-- The column as a function of the arrays the region finds. -/
def col (c : Dev nD) : FVec Ideal S4096x1 .f32 :=
  colOf (ofBlocks (w1Arr m c) (b1Arr m c) (w2Arr m c) (b2Arr m c) (w3Arr m c) (b3Arr m c)) (rowsArr m c)

theorem hz : (![0, 0] : Fin 2 → Nat) = fun _ => 0 := funext fun a => by fin_cases a <;> rfl

/-- The body's stored column at any index of its block. -/
theorem pay_at (x0 : FVec Ideal S64x64 .f32) (x1 x2 : FVec Ideal S1x256 .f32) (x3 : FVec Ideal S256x256 .bf16)
    (x4 : FVec Ideal S1x256 .f32) (x5 : FVec Ideal S256x1 .bf16) (x6 : FVec Ideal S1x1 .f32) (j : S64x1.Idx) :
    k0_pay1 (F := Ideal) x0 x1 x2 x3 x4 x5 x6 j
      = rowOut (ofBlocks x1 x2 x3 x4 x5 x6) (fun l => x0 (ix2 (⟨(j 0).val, idx2_lt0 j⟩ : Fin 64) l)) := by
  have e : j = ix2 (⟨(j 0).val, idx2_lt0 j⟩ : Fin 64) (⟨(j 1).val, idx2_lt1 j⟩ : Fin 1) := by
    funext a; match a with | ⟨0, _⟩ => rfl | ⟨1, _⟩ => rfl
  exact (congrArg (k0_pay1 (F := Ideal) x0 x1 x2 x3 x4 x5 x6) e).trans
    (Cert.KernelIdeal.Payload.pay_apply x0 x1 x2 x3 x4 x5 x6 _ _)

/-- What point `t` writes back is block `t` of the column. -/
theorem flushed_eq (c : Dev nD) (t : Fin cfg0.N) :
    (dats m 0 c).flushed 7 t = ((cfg0.win 7).blk t).view.read (Elt Ideal) (col m c) := by
  show (cfg0.win 7).cut (grid0.coords t) ((dats m 0 c).after 7 t) = _
  rw [after0_7]
  unfold out0_7
  rw [View.canon_unit_zero hz]
  simp only [View.ld_unit_zero (S := S64x64) hz, View.ld_unit_zero (S := S1x256) hz, View.ld_unit_zero (S := S256x256) hz,
    View.ld_unit_zero (S := S256x1) hz, View.ld_unit_zero (S := S1x1) hz]
  funext j
  show k0_pay1 (F := Ideal) (rowsBlk m c t) (w1Blk m c t) (b1Blk m c t) (w2Blk m c t) (b2Blk m c t) (w3Blk m c t) (b3Blk m c t) j
    = col m c (((cfg0.win 7).blk t).view.emb j)
  rw [w1Blk_eq, b1Blk_eq, w2Blk_eq, b2Blk_eq, w3Blk_eq, b3Blk_eq]
  refine (pay_at _ _ _ _ _ _ _ j).trans ?_
  unfold col colOf
  refine congrArg (rowOut _) (funext fun l => ?_)
  refine rowsBlk_apply m c t _ l _ ?_
  obtain ⟨-, -, -, -, -, -, -, -, -, -, -, -, -, -, e0, -⟩ := idx_facts t
  show win0_7.index t (0 : Fin 2) * 64 + 1 * (j 0).val = t.val * 64 + (j 0).val
  rw [e0]; omega

/-- An index of the column is in point `t`'s block iff each coordinate is in the block's range. -/
theorem mem_blk (t : Fin cfg0.N) (i : S4096x1.Idx) :
    i ∈ ((cfg0.win 7).blk t).view.set ↔ ∀ a : Fin 2, win0_7.index t a * S64x1.size a ≤ (i a).val ∧ (i a).val < win0_7.index t a * S64x1.size a + S64x1.size a := by
  show i ∈ ((View.whole main_v10).slice (win0_7.rect t)).set ↔ _
  rw [View.set_slice_whole, Rect.mem_set_unit]
  exact Iff.rfl

/-- Row `r` of the column is written back by point `r / 64`. -/
theorem cover (i : S4096x1.Idx) : ∃ t : Fin cfg0.N, (cfg0.win 7).flush t = true ∧ i ∈ ((cfg0.win 7).blk t).view.set := by
  have h0 : (i 0).val < 4096 := idx2_lt0 i
  have h1 : (i 1).val < 1 := idx2_lt1 i
  have hN : cfg0.N = 64 := N_0
  refine ⟨⟨(i 0).val / 64, by rw [hN]; omega⟩, flush0_7 _, ?_⟩
  rw [mem_blk]
  obtain ⟨-, -, -, -, -, -, -, -, -, -, -, -, -, -, e0, e1⟩ := idx_facts ⟨(i 0).val / 64, by rw [hN]; omega⟩
  intro a
  match a with
  | ⟨0, _⟩ =>
    show win0_7.index _ (0 : Fin 2) * 64 ≤ (i 0).val ∧ (i 0).val < win0_7.index _ (0 : Fin 2) * 64 + 64
    rw [e0]; show (i 0).val / 64 * 64 ≤ (i 0).val ∧ (i 0).val < (i 0).val / 64 * 64 + 64; omega
  | ⟨1, _⟩ =>
    show win0_7.index _ (1 : Fin 2) * 1 ≤ (i 1).val ∧ (i 1).val < win0_7.index _ (1 : Fin 2) * 1 + 1
    rw [e1]; omega

/-- The column after the region. -/
theorem final_col (c : Dev nD) : (dats m 0 c).arrAt 7 cfg0.N = col m c :=
  (dats m 0 c).arrAt_eq_of_cover 7 (col m c) (fun t _ => flushed_eq m c t) cover

/-! ## The result array -/

/-- The parameters the region finds are the argument arrays' entries. -/
theorem params_eq (a1 : FVec Ideal S1x256 .f32) (a2 : FVec Ideal S256 .f32) (a3 : FVec Ideal S256x256 .f32) (a4 : FVec Ideal S256 .f32)
    (a5 : FVec Ideal S256x1 .f32) (a6 : FVec Ideal S1 .f32) :
    ofBlocks a1 (shapeCast S1x256 a2 shapeCasts_S256_S1x256) (truncf .bf16 a3 bitsLt_bf16_f32)
      (shapeCast S1x256 a4 shapeCasts_S256_S1x256) (truncf .bf16 a5 bitsLt_bf16_f32) (shapeCast S1x1 a6 shapeCasts_S1_S1x1)
      = ofArgs a1 a2 a3 a4 a5 a6 := by
  unfold ofBlocks ofArgs
  congr 1
  · funext k; exact shapeCast_a_1a_apply a2 shapeCasts_S256_S1x256 (0 : Fin 1) k
  · funext h; exact shapeCast_a_1a_apply a4 shapeCasts_S256_S1x256 (0 : Fin 1) h
  · exact shapeCast_a_1a_apply a6 shapeCasts_S1_S1x1 (0 : Fin 1) (0 : Fin 1)

/-- The column of the laid-out normalized input, read as `[64, 64]`, is the specification's result. -/
theorem result_of_col (P : Params) (nrm : FVec Ideal S64x64x64 .f32) :
    shapeCast S64x64 (colOf P (shapeCast S4096x64 nrm shapeCasts_S64x64x64_S4096x64)) shapeCasts_S4096x1_S64x64
      = result P nrm := by
  funext i
  obtain ⟨b, f, rfl⟩ : ∃ (b f : Fin 64), i = ix2 b f := ⟨⟨(i 0).val, idx2_lt0 i⟩, ⟨(i 1).val, idx2_lt1 i⟩, by
    funext a; match a with | ⟨0, _⟩ => rfl | ⟨1, _⟩ => rfl⟩
  have hb := b.isLt
  have hf := f.isLt
  rw [result_ix2]
  refine (shapeCast_apply _ shapeCasts_S4096x1_S64x64 (ix2 b f) (ix2 (⟨b.val * 64 + f.val, by omega⟩ : Fin 4096) (0 : Fin 1)) (by
    rw [Shape.rowMajor_val_two, Shape.rowMajor_val_two]
    show (b.val * 64 + f.val) * 1 + 0 = b.val * 64 + f.val
    omega)).trans ?_
  unfold colOf resultAt
  refine congrArg (rowOut P) (funext fun l => ?_)
  refine shapeCast_apply nrm shapeCasts_S64x64x64_S4096x64 _ (ix3 b f l) (by
    rw [Shape.rowMajor_val_three, Shape.rowMajor_val_two]
    show (b.val * 64 + f.val) * 64 + l.val = (b.val * 64 + f.val) * 64 + l.val
    rfl)

/-- The result as a function of the argument arrays. -/
def resultOf (c : Dev nD) : FVec Ideal S64x64 .f32 :=
  result (ofArgs (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)))
    (normArr (m ((c : Thread nD τ).loc main_arg0)))

/-- The host's last line reads the column as the result array. -/
theorem tail_eq (c : Dev nD) :
    Pipeline.afterTail₀ cfgs (dats m) 0 (V0 m) [hostOps1] c main_v11 = resultOf m c := by
  unfold Pipeline.afterTail₀
  show StableHlo.after hostOps1 _ (Proc.devRef .tc main_v11) = _
  after_results
  have hw : (Pipeline.withArrays (cfgs 0).spec c (V0 m c) (fun w => (dats m 0 c).arrAt w (cfgs 0).N) (Proc.devRef .tc main_v10)
      : FVec Ideal S4096x1 .f32) = col m c :=
    (Pipeline.withArrays_arr spec0 launch0.win.arr_inj c _ _ 7).trans (final_col m c)
  rw [hw]
  unfold col
  rw [rowsArr_eq, w1Arr_eq, b1Arr_eq, w2Arr_eq, b2Arr_eq, w3Arr_eq, b3Arr_eq, params_eq]
  exact result_of_col _ _

/-! ## The run -/

/-- Every execution ends with the result array at `resultOf` and the arguments as launched. -/
theorem run : θ_run defs (onTc (τ := τ) (main (F := Ideal))) ⟨m, fun _ => 0, ρ⟩ fun r => ∀ c : Dev nD,
      r.2.mem ((c.tc : Thread nD τ).loc main_v11) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v11 (Pipeline.mem_restRefs_of main_v11 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.KValue

end
-- ==== Proof.RefValue.lean ====
/-
  The reference's result, entry by entry: read through its operations one at a time, the host program computes at
  `(b, f)` the perceptron-weighted sum of row `(b, f)` of the normalized input (`MlpSpec.result`), with the parameters
  taken from the argument arrays and the normalized input kept as the one term `inc_m / sum(inc_m, axis = -1)`.
-/
import proofs.«146023_j64604898066628_1_alg».proof.Proof.Gen.ReferenceIdeal.Read
import proofs.«146023_j64604898066628_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The first layer: the hidden unit `k` at the scalar `(b, f, l)` is `max (n · W1[0, k] + b1[k]) 0`, `n` the normalized
    input there. -/
theorem layer1_at (x0 : (⟨S64x64x64, .f32⟩ : BufTy).Contents (Elt Ideal)) (x1 : (⟨S1x256, .f32⟩ : BufTy).Contents (Elt Ideal))
    (x2 : (⟨S256, .f32⟩ : BufTy).Contents (Elt Ideal)) (b f l : Fin 64) (k : Fin 256) :
    val_main_v13 (F := Ideal) x0 x1 x2 (ix4 b f l k)
      = max (val_main_v3 (F := Ideal) x0 (ix3 b f l) * x1 (ix2 (0 : Fin 1) k) + x2 (ix1 k)) 0 := by
  have e0 : idx_main_v4 (idx_main_v7 (ix4 b f l k)) = ix3 b f l :=
    funext fun a => by match a with | ⟨0, _⟩ => rfl | ⟨1, _⟩ => rfl | ⟨2, _⟩ => rfl
  have e1 : idx_main_v5 (idx_main_v6 (idx_main_v8 (ix4 b f l k))) = ix2 (0 : Fin 1) k :=
    funext fun a => Fin.ext (by
      match a with
      | ⟨0, _⟩ => rfl
      | ⟨1, _⟩ => exact Nat.mod_eq_of_lt k.isLt)
  have e2 : idx_main_v10 (idx_main_v11 (ix4 b f l k)) = ix1 k :=
    funext fun a => by match a with | ⟨0, _⟩ => rfl
  rw [val_main_v13_apply, val_main_v12_apply, val_main_v9_apply, val_main_v7_apply, val_main_v4_apply,
    val_main_v8_apply, val_main_v6_apply, val_main_v5_apply, val_main_v11_apply, val_main_v10_apply,
    val_main_call0_v0_apply, val_main_call0_cst_apply, e0, e1, e2]
  show max (_ * _ + _) (Ideal.ofBits .f32 0x00000000#32) = _
  rw [Ideal.ofBits_zero_f32]

/-- The second layer: the hidden unit `h` at the scalar `(b, f, l)` is the first layer contracted with `W2[·, h]`, plus
    `b2[h]`, clipped at zero. -/
theorem layer2_at (x0 : (⟨S64x64x64, .f32⟩ : BufTy).Contents (Elt Ideal)) (x1 : (⟨S1x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (b f l : Fin 64) (h : Fin 256) :
    val_main_v18 (F := Ideal) x0 x1 x2 x3 x4 (ix4 b f l h)
      = max ((∑ k : Fin 256, val_main_v13 (F := Ideal) x0 x1 x2 (ix4 b f l k) * x3 (ix2 k h)) + x4 (ix1 h)) 0 := by
  have el : ∀ k : Fin 256, lidx_main_v14 (ix4 b f l h) k = ix4 b f l k := fun k =>
    funext fun a => by match a with | ⟨0, _⟩ => rfl | ⟨1, _⟩ => rfl | ⟨2, _⟩ => rfl | ⟨3, _⟩ => rfl
  have er : ∀ k : Fin 256, ridx_main_v14 (ix4 b f l h) k = ix2 k h := fun k =>
    funext fun a => by match a with | ⟨0, _⟩ => rfl | ⟨1, _⟩ => rfl
  have e2 : idx_main_v15 (idx_main_v16 (ix4 b f l h)) = ix1 h :=
    funext fun a => by match a with | ⟨0, _⟩ => rfl
  rw [val_main_v18_apply, val_main_v17_apply, val_main_v14_apply, val_main_v16_apply, val_main_v15_apply,
    val_main_call1_v0_apply, val_main_call1_cst_apply, e2]
  show max ((∑ k : Fin 256, _) + _) (Ideal.ofBits .f32 0x00000000#32) = _
  rw [Ideal.ofBits_zero_f32]
  refine congrArg (fun s => max (s + x4 (ix1 h)) 0) (Finset.sum_congr rfl fun k _ => ?_)
  rw [el k, er k]

/-- The perceptron's output at the scalar `(b, f, l)`: the second layer contracted with `W3[·, 0]`, plus `b3[0]`. -/
theorem weight_at (x0 : (⟨S64x64x64, .f32⟩ : BufTy).Contents (Elt Ideal)) (x1 : (⟨S1x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (x5 : (⟨S256x1, .f32⟩ : BufTy).Contents (Elt Ideal))
    (x6 : (⟨S1, .f32⟩ : BufTy).Contents (Elt Ideal)) (b f l : Fin 64) :
    val_main_v22 (F := Ideal) x0 x1 x2 x3 x4 x5 x6 (ix4 b f l (0 : Fin 1))
      = (∑ h : Fin 256, val_main_v18 (F := Ideal) x0 x1 x2 x3 x4 (ix4 b f l h) * x5 (ix2 h (0 : Fin 1)))
          + x6 (ix1 (0 : Fin 1)) := by
  have el : ∀ h : Fin 256, lidx_main_v19 (ix4 b f l (0 : Fin 1)) h = ix4 b f l h := fun h =>
    funext fun a => by match a with | ⟨0, _⟩ => rfl | ⟨1, _⟩ => rfl | ⟨2, _⟩ => rfl | ⟨3, _⟩ => rfl
  have er : ∀ h : Fin 256, ridx_main_v19 (ix4 b f l (0 : Fin 1)) h = ix2 h (0 : Fin 1) := fun h =>
    funext fun a => by match a with | ⟨0, _⟩ => rfl | ⟨1, _⟩ => rfl
  have e2 : idx_main_v20 (idx_main_v21 (ix4 b f l (0 : Fin 1))) = ix1 (0 : Fin 1) :=
    funext fun a => by match a with | ⟨0, _⟩ => rfl
  rw [val_main_v22_apply, val_main_v19_apply, val_main_v21_apply, val_main_v20_apply, e2]
  show (∑ h : Fin 256, _) + _ = _
  refine congrArg (· + x6 (ix1 (0 : Fin 1))) (Finset.sum_congr rfl fun h _ => ?_)
  rw [el h, er h]

/-- The weighted scalar: the entry `(b, f, l)` of the product is the perceptron's output there times the normalized input. -/
theorem weighted_at (x0 : (⟨S64x64x64, .f32⟩ : BufTy).Contents (Elt Ideal)) (x1 : (⟨S1x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (x5 : (⟨S256x1, .f32⟩ : BufTy).Contents (Elt Ideal))
    (x6 : (⟨S1, .f32⟩ : BufTy).Contents (Elt Ideal)) (b f l : Fin 64) :
    val_main_v24 (F := Ideal) x0 x1 x2 x3 x4 x5 x6 (ix3 b f l)
      = val_main_v22 (F := Ideal) x0 x1 x2 x3 x4 x5 x6 (ix4 b f l (0 : Fin 1)) * val_main_v3 (F := Ideal) x0 (ix3 b f l) := by
  -- the reshape drops the unit axis: the flat position of `(b, f, l)` splits back into `b`, `f`, `l`
  have e : idx_main_v23 (ix3 b f l) = ix4 b f l (0 : Fin 1) :=
    funext fun a => Fin.ext (by
      have hb := b.isLt
      have hf := f.isLt
      have hl := l.isLt
      match a with
      | ⟨0, _⟩ => show ((b.val * 64 + f.val) * 64 + l.val) / 4096 = b.val; omega
      | ⟨1, _⟩ => show ((b.val * 64 + f.val) * 64 + l.val) / 64 % 64 = f.val; omega
      | ⟨2, _⟩ => show ((b.val * 64 + f.val) * 64 + l.val) / 1 % 64 = l.val; omega
      | ⟨3, _⟩ => rfl)
  rw [val_main_v24_apply, val_main_v23_apply, e]
  rfl

/-- The reference's result array is the specification's, at the argument arrays and the normalized input. -/
theorem ref_result (x0 : (⟨S64x64x64, .f32⟩ : BufTy).Contents (Elt Ideal)) (x1 : (⟨S1x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (x5 : (⟨S256x1, .f32⟩ : BufTy).Contents (Elt Ideal))
    (x6 : (⟨S1, .f32⟩ : BufTy).Contents (Elt Ideal)) :
    val_main_v25 (F := Ideal) x0 x1 x2 x3 x4 x5 x6
      = Cert.MlpSpec.result (Cert.MlpSpec.ofArgs x1 x2 x3 x4 x5 x6) (val_main_v3 (F := Ideal) x0) := by
  funext i
  obtain ⟨b, f, rfl⟩ : ∃ (b f : Fin 64), i = ix2 b f := ⟨i 0, i 1, eq_ix2 i⟩
  -- the row sum starts from zero and runs over the 64 scalars of row `(b, f)`
  have e : ∀ l : Fin 64, idx_main_v25 (ix2 b f) l = ix3 b f l := fun l =>
    funext fun a => by match a with | ⟨0, _⟩ => rfl | ⟨1, _⟩ => rfl | ⟨2, _⟩ => rfl
  rw [val_main_v25_apply, val_main_cst_0_apply, Cert.MlpSpec.result_ix2]
  show Ideal.ofBits .f32 0x00000000#32 + ∑ l : Fin 64, _ = _
  rw [Ideal.ofBits_zero_f32, zero_add]
  unfold Cert.MlpSpec.resultAt Cert.MlpSpec.rowOut
  refine Finset.sum_congr rfl fun l _ => ?_
  rw [e l, weighted_at, weight_at]
  -- each scalar's factor is the perceptron's output: layer by layer the stages are the specification's
  refine congrArg (· * val_main_v3 (F := Ideal) x0 (ix3 b f l)) ?_
  unfold Cert.MlpSpec.weight
  refine congrArg (· + x6 (ix1 (0 : Fin 1))) (Finset.sum_congr rfl fun h _ => ?_)
  rw [layer2_at]
  refine congrArg (· * x5 (ix2 h (0 : Fin 1))) ?_
  unfold Cert.MlpSpec.layer2
  refine congrArg (fun s => max (s + x4 (ix1 h)) 0) (Finset.sum_congr rfl fun k _ => ?_)
  rw [layer1_at]
  rfl

end Cert.ReferenceIdeal.RefValue

end
-- ==== Proof.lean ====
/-
  Both programs compute, for each of the 64 × 64 rows of 64 scalars of the input `inc_m`, the normalized row
  `n = row / sum(row)` and then `∑ l, w (n l) · n l`, where `w` is a three-layer perceptron applied to one scalar:
  `w n = ∑ h, max (∑ k, max (n · W1[0,k] + b1[k]) 0 · W2[k,h] + b2[h]) 0 · W3[h,0] + b3[0]`.
  The reference does it as one host computation over `[64, 64, 64, 256]` arrays. The kernel program normalizes on the
  host, lays the rows out as `[4096, 64]`, and lets each of 64 grid points push 64 rows through the perceptron (its two
  matrix products take operands narrowed to a 16-bit format, which on extended reals is no change) and write 64 entries of
  a `[4096, 1]` column that the host reads back as `[64, 64]`. On the extended reals the two are the same sums of the same
  products, entry by entry (`Proof/Spec.lean` states the function; `Proof/RefValue.lean`, `Proof/Payload.lean` and
  `Proof/KernelValue.lean` show each program computes it); the normalization is the same host term on both sides and is
  never opened. No law beyond reading each operation at an index is used, so the precondition is not.
-/
import proofs.«146023_j64604898066628_1_alg».proof.Defs
import proofs.«146023_j64604898066628_1_alg».proof.Proof.Gen.Kernel
import proofs.«146023_j64604898066628_1_alg».proof.Proof.Gen.Kernel.Skeleton
import proofs.«146023_j64604898066628_1_alg».proof.Proof.Gen.Kernel.Launch
import proofs.«146023_j64604898066628_1_alg».proof.Proof.Gen.Kernel.Points
import proofs.«146023_j64604898066628_1_alg».proof.Proof.Gen.Kernel.Frame
import proofs.«146023_j64604898066628_1_alg».proof.Proof.Gen.KernelIdeal
import proofs.«146023_j64604898066628_1_alg».proof.Proof.Gen.KernelIdeal.Skeleton
import proofs.«146023_j64604898066628_1_alg».proof.Proof.Gen.KernelIdeal.Launch
import proofs.«146023_j64604898066628_1_alg».proof.Proof.Gen.KernelIdeal.Points
import proofs.«146023_j64604898066628_1_alg».proof.Proof.Gen.KernelIdeal.Frame
import proofs.«146023_j64604898066628_1_alg».proof.Proof.Gen.ReferenceIdeal
import proofs.«146023_j64604898066628_1_alg».proof.Proof.Gen.Pre_finite_inputs
import proofs.«146023_j64604898066628_1_alg».proof.Proof.Gen.ReferenceIdeal.Run
import proofs.«146023_j64604898066628_1_alg».proof.Proof.Gen.ReferenceIdeal.Read
import proofs.«146023_j64604898066628_1_alg».proof.Proof.KernelValue
import proofs.«146023_j64604898066628_1_alg».proof.Proof.RefValue
import Idealize.ShloMosaic.Adequacy
import Idealize.ShloMosaic.Init

noncomputable section

namespace Cert.Proof

open Idealize.ShloMosaic Idealize.ShloMosaic.TcCoe Idealize.SL.Sem

/-- The reference normalizes the input by the same host operations as the kernel program: one term. -/
theorem norm_eq (x : FVec Ideal Cert.KernelIdeal.S64x64x64 .f32) :
    Cert.ReferenceIdeal.Read.val_main_v3 (F := Ideal) x = Cert.KernelIdeal.KValue.normArr x := rfl

theorem frame_k : Cert.frame_Kernel := fun m ρ _ => Cert.Kernel.Gen.frame m ρ

theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the specification's function of the (agreeing) argument arrays. -/
theorem algebraic : Cert.algebraic_KernelIdeal_ReferenceIdeal := by
  intro m ρ m' ρ' _ hagree
  refine ⟨fun c => Cert.KernelIdeal.KValue.resultOf m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v25_eq, Cert.ReferenceIdeal.RefValue.ref_result, e0, e1, e2, e3, e4, e5, e6, norm_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
